-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S128x128 : Shape := ⟨2, ![128, 128]⟩
abbrev S384 : Shape := ⟨1, ![384]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S384x128 .f32) (main_arg1 : FVec F S128x128 .f32) (main_arg2 : IVec S384 32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S384x128 : Shape := ⟨2, ![384, 128]⟩
abbrev S128x128 : Shape := ⟨2, ![128, 128]⟩
abbrev S384 : Shape := ⟨1, ![384]⟩
abbrev S_ : Shape := ⟨0, ![]⟩
abbrev S128x384 : Shape := ⟨2, ![128, 384]⟩
abbrev S384x384 : Shape := ⟨2, ![384, 384]⟩
abbrev S384x1 : Shape := ⟨2, ![384, 1]⟩
abbrev S1x384 : Shape := ⟨2, ![1, 384]⟩
abbrev S16x384 : Shape := ⟨2, ![16, 384]⟩
abbrev S16x1 : Shape := ⟨2, ![16, 1]⟩
abbrev S16x1x384 : Shape := ⟨3, ![16, 1, 384]⟩
abbrev S16x384x1 : Shape := ⟨3, ![16, 384, 1]⟩
abbrev S16x384x384 : Shape := ⟨3, ![16, 384, 384]⟩
abbrev S1x384x384 : Shape := ⟨3, ![1, 384, 384]⟩
abbrev S16 : Shape := ⟨1, ![16]⟩

abbrev nBuf : Space → Nat
  | .hbm => 66
  | .vmem => 9
  | .smem => 0
  | _ => 0

abbrev bufTy : (tb : Table) → Fin (tcTables nBuf tb) → BufTy
  | .hbm, ⟨0, _⟩ => ⟨S384x128, .f32⟩
  | .hbm, ⟨1, _⟩ => ⟨S128x128, .f32⟩
  | .hbm, ⟨2, _⟩ => ⟨S384, .i32⟩
  | .hbm, ⟨3, _⟩ => ⟨S128x128, .f32⟩
  | .hbm, ⟨4, _⟩ => ⟨S128x128, .f32⟩
  | .hbm, ⟨5, _⟩ => ⟨S384x128, .f32⟩
  | .hbm, ⟨6, _⟩ => ⟨S384x128, .f32⟩
  | .hbm, ⟨7, _⟩ => ⟨S_, .f32⟩
  | .hbm, ⟨8, _⟩ => ⟨S384, .f32⟩
  | .hbm, ⟨9, _⟩ => ⟨S128x384, .f32⟩
  | .hbm, ⟨10, _⟩ => ⟨S384x384, .f32⟩
  | .hbm, ⟨11, _⟩ => ⟨S384x1, .f32⟩
  | .hbm, ⟨12, _⟩ => ⟨S1x384, .f32⟩
  | .hbm, ⟨13, _⟩ => ⟨S384x384, .f32⟩
  | .hbm, ⟨14, _⟩ => ⟨S384x384, .f32⟩
  | .hbm, ⟨15, _⟩ => ⟨S384x384, .f32⟩
  | .hbm, ⟨16, _⟩ => ⟨S_, .f32⟩
  | .hbm, ⟨17, _⟩ => ⟨S384x384, .f32⟩
  | .hbm, ⟨18, _⟩ => ⟨S384x384, .f32⟩
  | .hbm, ⟨19, _⟩ => ⟨S384x384, .f32⟩
  | .hbm, ⟨20, _⟩ => ⟨S128x128, .f32⟩
  | .hbm, ⟨21, _⟩ => ⟨S128x128, .f32⟩
  | .hbm, ⟨22, _⟩ => ⟨S384x128, .f32⟩
  | .hbm, ⟨23, _⟩ => ⟨S384x128, .f32⟩
  | .hbm, ⟨24, _⟩ => ⟨S_, .f32⟩
  | .hbm, ⟨25, _⟩ => ⟨S384, .f32⟩
  | .hbm, ⟨26, _⟩ => ⟨S128x384, .f32⟩
  | .hbm, ⟨27, _⟩ => ⟨S384x384, .f32⟩
  | .hbm, ⟨28, _⟩ => ⟨S384x1, .f32⟩
  | .hbm, ⟨29, _⟩ => ⟨S1x384, .f32⟩
  | .hbm, ⟨30, _⟩ => ⟨S384x384, .f32⟩
  | .hbm, ⟨31, _⟩ => ⟨S384x384, .f32⟩
  | .hbm, ⟨32, _⟩ => ⟨S384x384, .f32⟩
  | .hbm, ⟨33, _⟩ => ⟨S_, .f32⟩
  | .hbm, ⟨34, _⟩ => ⟨S384x384, .f32⟩
  | .hbm, ⟨35, _⟩ => ⟨S384x384, .f32⟩
  | .hbm, ⟨36, _⟩ => ⟨S384x384, .f32⟩
  | .hbm, ⟨37, _⟩ => ⟨S_, .f32⟩
  | .hbm, ⟨38, _⟩ => ⟨S384x384, .f32⟩
  | .hbm, ⟨39, _⟩ => ⟨S384x384, .f32⟩
  | .hbm, ⟨40, _⟩ => ⟨S384x384, .f32⟩
  | .hbm, ⟨41, _⟩ => ⟨S_, .f32⟩
  | .hbm, ⟨42, _⟩ => ⟨S384x384, .f32⟩
  | .hbm, ⟨43, _⟩ => ⟨S384x384, .f32⟩
  | .hbm, ⟨44, _⟩ => ⟨S_, .f32⟩
  | .hbm, ⟨45, _⟩ => ⟨S384x384, .f32⟩
  | .hbm, ⟨46, _⟩ => ⟨S384x384, .f32⟩
  | .hbm, ⟨47, _⟩ => ⟨S384x1, .i32⟩
  | .hbm, ⟨48, _⟩ => ⟨S1x384, .i32⟩
  | .hbm, ⟨49, _⟩ => ⟨S384x384, .i32⟩
  | .hbm, ⟨50, _⟩ => ⟨S384x384, .i32⟩
  | .hbm, ⟨51, _⟩ => ⟨S384x384, .i1⟩
  | .hbm, ⟨52, _⟩ => ⟨S384x384, .f32⟩
  | .hbm, ⟨53, _⟩ => ⟨S384x384, .i32⟩
  | .hbm, ⟨54, _⟩ => ⟨S384x384, .i32⟩
  | .hbm, ⟨55, _⟩ => ⟨S_, .i32⟩
  | .hbm, ⟨56, _⟩ => ⟨S384x384, .i32⟩
  | .hbm, ⟨57, _⟩ => ⟨S384x384, .i32⟩
  | .hbm, ⟨58, _⟩ => ⟨S384x384, .i1⟩
  | .hbm, ⟨59, _⟩ => ⟨S384x384, .f32⟩
  | .hbm, ⟨60, _⟩ => ⟨S_, .f32⟩
  | .hbm, ⟨61, _⟩ => ⟨S384x384, .f32⟩
  | .hbm, ⟨62, _⟩ => ⟨S384x384, .f32⟩
  | .hbm, ⟨63, _⟩ => ⟨S384x384, .f32⟩
  | .hbm, ⟨64, _⟩ => ⟨S384x1, .f32⟩
  | .hbm, ⟨65, _⟩ => ⟨S384, .f32⟩
  | .local _ .vmem, ⟨0, _⟩ => ⟨S16x384, .f32⟩
  | .local _ .vmem, ⟨1, _⟩ => ⟨S16x384, .f32⟩
  | .local _ .vmem, ⟨2, _⟩ => ⟨S384x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | .local _ .vmem, ⟨7, _⟩ => ⟨S16x1, .f32⟩
  | .local _ .vmem, ⟨8, _⟩ => ⟨S16x1, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  reducesTo_S384x128_S384_d1 : S384x128.ReducesTo [1] S384
  h_S_ : 0 < S_.numel
  transposes_S384x128_S128x384_1_0 : S384x128.Transposes [1, 0] S128x384
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  bcast_S_S384x384 : S_.BroadcastsInDim S384x384 (![] : Fin 0 → Fin S384x384.rank)
  inb_S16x384_S16x384_0_0 : ∀ a, (![0, 0] : Fin 2 → Nat) a + S16x384.size a ≤ S16x384.size a
  h_S16x384 : 0 < S16x384.numel
  shapeCasts_S16x384_S16x384 : S16x384.ShapeCasts S16x384
  shapeCasts_S16x384_S16x1x384 : S16x384.ShapeCasts S16x1x384
  shapeCasts_S16x384_S16x384x1 : S16x384.ShapeCasts S16x384x1
  broadcasts_S16x1x384_S16x384x384 : S16x1x384.Broadcasts S16x384x384
  broadcasts_S16x384x1_S16x384x384 : S16x384x1.Broadcasts S16x384x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  shapeCasts_S384x384_S1x384x384 : S384x384.ShapeCasts S1x384x384
  broadcasts_S1x384x384_S16x384x384 : S1x384x384.Broadcasts S16x384x384
  reduces_S16x384x384_S16x384 : S16x384x384.Reduces [1] S16x384
  reduces_S16x384_S16 : S16x384.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S384x1_S384 : S384x1.ShapeCasts S384
  dot_S128x128_S128x128_S128x128_1_0_0_1_n_n_wf : DotDims.WF S128x128 S128x128 S128x128 [1] [0] [0] [1] [] []
  dot_S384x128_S128x128_S384x128_1_0_0_1_n_n_wf : DotDims.WF S384x128 S128x128 S384x128 [1] [0] [0] [1] [] []
  dot_S384x128_S128x384_S384x384_1_0_0_1_n_n_wf : DotDims.WF S384x128 S128x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x384.size a ≤ S384x384.size a
  hwx0_0 : ∀ i : grid0.Coords, EltTy.bits .f32 = 32 ∨ (Rect.block (s := S384x384) S16x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x384.size a ≤ S384x384.size a
  hwx0_2 : ∀ i : grid0.Coords, EltTy.bits .f32 = 32 ∨ (Rect.block (s := S384x384) S16x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x384.size a ≤ S384x384.size a
  hwx0_3 : ∀ i : grid0.Coords, EltTy.bits .f32 = 32 ∨ (Rect.block (s := S384x384) S16x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S384x1.size a
  hwx0_4 : ∀ i : grid0.Coords, EltTy.bits .f32 = 32 ∨ (Rect.block (s := S384x1) S16x1.size (cc0_transform_4 i) (hinb0_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S384x128_S128x128_S384x128_1_0_0_1_n_n : DotDims S384x128 S128x128 S384x128 where
  lhsContracting := [1]
  rhsContracting := [0]
  lhsNonContracting := [0]
  rhsNonContracting := [1]
  lhsBatch := []
  rhsBatch := []
  wf := dot_S384x128_S128x128_S384x128_1_0_0_1_n_n_wf
def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

abbrev win0_0 : Pipeline.Window sig grid0 :=
  Pipeline.Window.ofSpec (Memref.whole main_v14) S16x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S16x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S16x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52) S16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S384x128 : Shape := ⟨2, ![384, 128]⟩
abbrev S128x128 : Shape := ⟨2, ![128, 128]⟩
abbrev S384 : Shape := ⟨1, ![384]⟩
abbrev S_ : Shape := ⟨0, ![]⟩
abbrev S128x384 : Shape := ⟨2, ![128, 384]⟩
abbrev S384x384 : Shape := ⟨2, ![384, 384]⟩
abbrev S384x1 : Shape := ⟨2, ![384, 1]⟩
abbrev S1x384 : Shape := ⟨2, ![1, 384]⟩
abbrev S384x1x384 : Shape := ⟨3, ![384, 1, 384]⟩
abbrev S384x384x1 : Shape := ⟨3, ![384, 384, 1]⟩
abbrev S384x384x384 : Shape := ⟨3, ![384, 384, 384]⟩
abbrev S1x384x384 : Shape := ⟨3, ![1, 384, 384]⟩

abbrev nBuf : Space → Nat
  | .hbm => 87
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S128x128, .f32⟩
  | .hbm, ⟨2, _⟩ => ⟨S384, .i32⟩
  | .hbm, ⟨3, _⟩ => ⟨S128x128, .f32⟩
  | .hbm, ⟨4, _⟩ => ⟨S128x128, .f32⟩
  | .hbm, ⟨5, _⟩ => ⟨S384x128, .f32⟩
  | .hbm, ⟨6, _⟩ => ⟨S384x128, .f32⟩
  | .hbm, ⟨7, _⟩ => ⟨S_, .f32⟩
  | .hbm, ⟨8, _⟩ => ⟨S384, .f32⟩
  | .hbm, ⟨9, _⟩ => ⟨S384x128, .f32⟩
  | .hbm, ⟨10, _⟩ => ⟨S128x384, .f32⟩
  | .hbm, ⟨11, _⟩ => ⟨S384x384, .f32⟩
  | .hbm, ⟨12, _⟩ => ⟨S384x1, .f32⟩
  | .hbm, ⟨13, _⟩ => ⟨S1x384, .f32⟩
  | .hbm, ⟨14, _⟩ => ⟨S384x384, .f32⟩
  | .hbm, ⟨15, _⟩ => ⟨S384x384, .f32⟩
  | .hbm, ⟨16, _⟩ => ⟨S384x384, .f32⟩
  | .hbm, ⟨17, _⟩ => ⟨S_, .f32⟩
  | .hbm, ⟨18, _⟩ => ⟨S384x384, .f32⟩
  | .hbm, ⟨19, _⟩ => ⟨S384x384, .f32⟩
  | .hbm, ⟨20, _⟩ => ⟨S384x384, .f32⟩
  | .hbm, ⟨21, _⟩ => ⟨S384x1x384, .f32⟩
  | .hbm, ⟨22, _⟩ => ⟨S384x384x1, .f32⟩
  | .hbm, ⟨23, _⟩ => ⟨S384x384x384, .f32⟩
  | .hbm, ⟨24, _⟩ => ⟨S384x384x384, .f32⟩
  | .hbm, ⟨25, _⟩ => ⟨S384x384x384, .f32⟩
  | .hbm, ⟨26, _⟩ => ⟨S_, .f32⟩
  | .hbm, ⟨27, _⟩ => ⟨S384x384x384, .f32⟩
  | .hbm, ⟨28, _⟩ => ⟨S384x384x384, .f32⟩
  | .hbm, ⟨29, _⟩ => ⟨S128x128, .f32⟩
  | .hbm, ⟨30, _⟩ => ⟨S128x128, .f32⟩
  | .hbm, ⟨31, _⟩ => ⟨S384x128, .f32⟩
  | .hbm, ⟨32, _⟩ => ⟨S384x128, .f32⟩
  | .hbm, ⟨33, _⟩ => ⟨S_, .f32⟩
  | .hbm, ⟨34, _⟩ => ⟨S384, .f32⟩
  | .hbm, ⟨35, _⟩ => ⟨S384x128, .f32⟩
  | .hbm, ⟨36, _⟩ => ⟨S128x384, .f32⟩
  | .hbm, ⟨37, _⟩ => ⟨S384x384, .f32⟩
  | .hbm, ⟨38, _⟩ => ⟨S384x1, .f32⟩
  | .hbm, ⟨39, _⟩ => ⟨S1x384, .f32⟩
  | .hbm, ⟨40, _⟩ => ⟨S384x384, .f32⟩
  | .hbm, ⟨41, _⟩ => ⟨S384x384, .f32⟩
  | .hbm, ⟨42, _⟩ => ⟨S384x384, .f32⟩
  | .hbm, ⟨43, _⟩ => ⟨S_, .f32⟩
  | .hbm, ⟨44, _⟩ => ⟨S384x384, .f32⟩
  | .hbm, ⟨45, _⟩ => ⟨S384x384, .f32⟩
  | .hbm, ⟨46, _⟩ => ⟨S384x384, .f32⟩
  | .hbm, ⟨47, _⟩ => ⟨S_, .f32⟩
  | .hbm, ⟨48, _⟩ => ⟨S384x384, .f32⟩
  | .hbm, ⟨49, _⟩ => ⟨S384x384, .f32⟩
  | .hbm, ⟨50, _⟩ => ⟨S384x384, .f32⟩
  | .hbm, ⟨51, _⟩ => ⟨S_, .f32⟩
  | .hbm, ⟨52, _⟩ => ⟨S384x384, .f32⟩
  | .hbm, ⟨53, _⟩ => ⟨S384x384, .f32⟩
  | .hbm, ⟨54, _⟩ => ⟨S_, .f32⟩
  | .hbm, ⟨55, _⟩ => ⟨S384x384, .f32⟩
  | .hbm, ⟨56, _⟩ => ⟨S384x384, .f32⟩
  | .hbm, ⟨57, _⟩ => ⟨S1x384x384, .f32⟩
  | .hbm, ⟨58, _⟩ => ⟨S384x384x384, .f32⟩
  | .hbm, ⟨59, _⟩ => ⟨S384x384x384, .f32⟩
  | .hbm, ⟨60, _⟩ => ⟨S1x384, .i32⟩
  | .hbm, ⟨61, _⟩ => ⟨S384x1, .i32⟩
  | .hbm, ⟨62, _⟩ => ⟨S384x384, .i32⟩
  | .hbm, ⟨63, _⟩ => ⟨S384x384, .i32⟩
  | .hbm, ⟨64, _⟩ => ⟨S384x384, .i1⟩
  | .hbm, ⟨65, _⟩ => ⟨S384x384, .i1⟩
  | .hbm, ⟨66, _⟩ => ⟨S384x384, .i32⟩
  | .hbm, ⟨67, _⟩ => ⟨S384x384, .i32⟩
  | .hbm, ⟨68, _⟩ => ⟨S_, .i32⟩
  | .hbm, ⟨69, _⟩ => ⟨S384x384, .i32⟩
  | .hbm, ⟨70, _⟩ => ⟨S384x384, .i32⟩
  | .hbm, ⟨71, _⟩ => ⟨S384x384, .i1⟩
  | .hbm, ⟨72, _⟩ => ⟨S384x384, .i1⟩
  | .hbm, ⟨73, _⟩ => ⟨S384x384x1, .i1⟩
  | .hbm, ⟨74, _⟩ => ⟨S_, .f32⟩
  | .hbm, ⟨75, _⟩ => ⟨S_, .f32⟩
  | .hbm, ⟨76, _⟩ => ⟨S384x384x384, .i1⟩
  | .hbm, ⟨77, _⟩ => ⟨S384x384x384, .f32⟩
  | .hbm, ⟨78, _⟩ => ⟨S384x384x384, .f32⟩
  | .hbm, ⟨79, _⟩ => ⟨S_, .f32⟩
  | .hbm, ⟨80, _⟩ => ⟨S384x384, .f32⟩
  | .hbm, ⟨81, _⟩ => ⟨S_, .f32⟩
  | .hbm, ⟨82, _⟩ => ⟨S_, .f32⟩
  | .hbm, ⟨83, _⟩ => ⟨S384x384, .f32⟩
  | .hbm, ⟨84, _⟩ => ⟨S384x384, .f32⟩
  | .hbm, ⟨85, _⟩ => ⟨S_, .f32⟩
  | .hbm, ⟨86, _⟩ => ⟨S384, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_c : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_cst_9 : Ref sig .tc := ⟨.hbm, 81, rfl⟩
abbrev main_call1_v0 : Ref sig .tc := ⟨.hbm, 82, rfl⟩
abbrev main_call1_v1 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  transposes_S128x128_S128x128_1_0 : S128x128.Transposes [1, 0] S128x128
  reducesTo_S384x128_S384_d1 : S384x128.ReducesTo [1] S384
  h_S_ : 0 < S_.numel
  transposes_S384x128_S128x384_1_0 : S384x128.Transposes [1, 0] S128x384
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  bcast_S_S384x384 : S_.BroadcastsInDim S384x384 (![] : Fin 0 → Fin S384x384.rank)
  bcast_S384x384_S384x1x384_0_2 : S384x384.BroadcastsInDim S384x1x384 (![0, 2] : Fin 2 → Fin S384x1x384.rank)
  bcast_S384x384_S384x384x1_0_1 : S384x384.BroadcastsInDim S384x384x1 (![0, 1] : Fin 2 → Fin S384x384x1.rank)
  bcast_S384x1x384_S384x384x384_0_1_2 : S384x1x384.BroadcastsInDim S384x384x384 (![0, 1, 2] : Fin 3 → Fin S384x384x384.rank)
  bcast_S384x384x1_S384x384x384_0_1_2 : S384x384x1.BroadcastsInDim S384x384x384 (![0, 1, 2] : Fin 3 → Fin S384x384x384.rank)
  bcast_S_S384x384x384 : S_.BroadcastsInDim S384x384x384 (![] : Fin 0 → Fin S384x384x384.rank)
  bcast_S384x384_S1x384x384_1_2 : S384x384.BroadcastsInDim S1x384x384 (![1, 2] : Fin 2 → Fin S1x384x384.rank)
  bcast_S1x384x384_S384x384x384_0_1_2 : S1x384x384.BroadcastsInDim S384x384x384 (![0, 1, 2] : Fin 3 → Fin S384x384x384.rank)
  reducesTo_S384x384x384_S384x384_d1 : S384x384x384.ReducesTo [1] S384x384
  reducesTo_S384x384_S384_d1 : S384x384.ReducesTo [1] S384
  dot_S128x128_S128x128_S128x128_1_0_0_1_n_n_wf : DotDims.WF S128x128 S128x128 S128x128 [1] [0] [0] [1] [] []
  dot_S384x128_S128x128_S384x128_1_0_0_1_n_n_wf : DotDims.WF S384x128 S128x128 S384x128 [1] [0] [0] [1] [] []
  dot_S384x128_S128x384_S384x384_1_0_0_1_n_n_wf : DotDims.WF S384x128 S128x384 S384x384 [1] [0] [0] [1] [] []

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S384x128_S128x128_S384x128_1_0_0_1_n_n : DotDims S384x128 S128x128 S384x128 where
  lhsContracting := [1]
  rhsContracting := [0]
  lhsNonContracting := [0]
  rhsNonContracting := [1]
  lhsBatch := []
  rhsBatch := []
  wf := dot_S384x128_S128x128_S384x128_1_0_0_1_n_n_wf
def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

class Facts : Prop extends Facts₀ where

variable [Facts]
-- ==== Proof.WhereCasts.lean ====
/-
  The reference's two `jnp.where` calls are printed as module-local functions whose operations move a value between the
  buffer's own type and the tensor type the function states. At the literal buffers of this program the two types are the
  same type, so every such transport is the identity: the composed term of the result — the `+∞` selection around the
  maximum over `j` of the zeroing selection, under the minimum over `k` — is the same term without the transports.
  Stated over variables for the operands (the class-equality mask, the two scalar constants, the broadcast zeroing mask,
  the quotient cube and the reductions' initial values), so that the equation is checked on the skeleton alone.
-/
import proofs.«138932_j87093346828907_1_alg».proof.Proof.Gen.ReferenceIdeal
import Idealize.ShloMosaic.Lib.StableHlo.Run

noncomputable section

namespace Cert.ReferenceIdeal.Margin

open Cert.ReferenceIdeal Cert.ReferenceIdeal.Gen Idealize.ShloMosaic Idealize.ShloMosaic.TcCoe Idealize.SL.Sem Idealize.ShloMosaic.StableHlo

variable {F : FTy → Type} [FloatOps F]

/-- The inner inlined call (the zeroing `where`): its typed-reference transports are identities. -/
theorem peel_inner (Z61 : (⟨S384x384x1, .i1⟩ : BufTy).Contents (Elt F)) (K0 : (⟨S_, .f32⟩ : BufTy).Contents (Elt F))
    (Q48 : (⟨S384x384x384, .f32⟩ : BufTy).Contents (Elt F)) :
    ((TRef.of (T := ⟨S384x384x384, .f32⟩) main_v62).toBuf (Val := Elt F)
        (select
          ((TRef.of (T := ⟨S384x384x384, .i1⟩) main_call0_v1).ofBuf (Val := Elt F) ((TRef.of (T := ⟨S384x384x384, .i1⟩) main_call0_v1).toBuf (Val := Elt F)
            (broadcastInDim S384x384x384 ![0, 1, 2] bcast_S384x384x1_S384x384x384_0_1_2
              ((TRef.of (T := ⟨S384x384x1, .i1⟩) main_v61).ofBuf (Val := Elt F) Z61))))
          ((TRef.of (T := ⟨S384x384x384, .f32⟩) main_call0_v2).ofBuf (Val := Elt F) ((TRef.of (T := ⟨S384x384x384, .f32⟩) main_call0_v2).toBuf (Val := Elt F)
            (broadcastInDim S384x384x384 ![] bcast_S_S384x384x384
              ((TRef.of (T := ⟨S_, .f32⟩) main_call0_v0).ofBuf (Val := Elt F) ((TRef.of (T := ⟨S_, .f32⟩) main_call0_v0).toBuf (Val := Elt F)
                (id ((TRef.of (T := ⟨S_, .f32⟩) main_cst_7).ofBuf (Val := Elt F) K0)))))))
          ((TRef.of (T := ⟨S384x384x384, .f32⟩) main_v48).ofBuf (Val := Elt F) Q48)) : (⟨S384x384x384, .f32⟩ : BufTy).Contents (Elt F))
      = select (broadcastInDim S384x384x384 ![0, 1, 2] bcast_S384x384x1_S384x384x384_0_1_2 Z61)
          (broadcastInDim S384x384x384 ![] bcast_S_S384x384x384 (id K0)) Q48 := rfl

/-- The outer inlined call (the `+∞` `where`): likewise. -/
theorem peel_outer (Sm : (⟨S384x384, .i1⟩ : BufTy).Contents (Elt F)) (Kinf : (⟨S_, .f32⟩ : BufTy).Contents (Elt F))
    (R : (⟨S384x384, .f32⟩ : BufTy).Contents (Elt F)) :
    ((TRef.of (T := ⟨S384x384, .f32⟩) main_v64).toBuf (Val := Elt F)
        (select ((TRef.of (T := ⟨S384x384, .i1⟩) main_v53).ofBuf (Val := Elt F) Sm)
          ((TRef.of (T := ⟨S384x384, .f32⟩) main_call1_v1).ofBuf (Val := Elt F) ((TRef.of (T := ⟨S384x384, .f32⟩) main_call1_v1).toBuf (Val := Elt F)
            (broadcastInDim S384x384 ![] bcast_S_S384x384
              ((TRef.of (T := ⟨S_, .f32⟩) main_call1_v0).ofBuf (Val := Elt F) ((TRef.of (T := ⟨S_, .f32⟩) main_call1_v0).toBuf (Val := Elt F)
                (id ((TRef.of (T := ⟨S_, .f32⟩) main_cst_9).ofBuf (Val := Elt F) Kinf)))))))
          ((TRef.of (T := ⟨S384x384, .f32⟩) main_v63).ofBuf (Val := Elt F) R)) : (⟨S384x384, .f32⟩ : BufTy).Contents (Elt F))
      = select Sm (broadcastInDim S384x384 ![] bcast_S_S384x384 (id Kinf)) R := rfl

/-- Both calls around the two reductions. -/
theorem peel (Sm : (⟨S384x384, .i1⟩ : BufTy).Contents (Elt F)) (Kinf K0 iMax iMin : (⟨S_, .f32⟩ : BufTy).Contents (Elt F))
    (Z61 : (⟨S384x384x1, .i1⟩ : BufTy).Contents (Elt F)) (Q48 : (⟨S384x384x384, .f32⟩ : BufTy).Contents (Elt F)) :
    Host.reduce FloatOps.minimumf
      ((TRef.of (T := ⟨S384x384, .f32⟩) main_v64).toBuf (Val := Elt F)
        (select ((TRef.of (T := ⟨S384x384, .i1⟩) main_v53).ofBuf (Val := Elt F) Sm)
          ((TRef.of (T := ⟨S384x384, .f32⟩) main_call1_v1).ofBuf (Val := Elt F) ((TRef.of (T := ⟨S384x384, .f32⟩) main_call1_v1).toBuf (Val := Elt F)
            (broadcastInDim S384x384 ![] bcast_S_S384x384
              ((TRef.of (T := ⟨S_, .f32⟩) main_call1_v0).ofBuf (Val := Elt F) ((TRef.of (T := ⟨S_, .f32⟩) main_call1_v0).toBuf (Val := Elt F)
                (id ((TRef.of (T := ⟨S_, .f32⟩) main_cst_9).ofBuf (Val := Elt F) Kinf)))))))
          ((TRef.of (T := ⟨S384x384, .f32⟩) main_v63).ofBuf (Val := Elt F)
            (Host.reduce FloatOps.maximumf
              ((TRef.of (T := ⟨S384x384x384, .f32⟩) main_v62).toBuf (Val := Elt F)
                (select
                  ((TRef.of (T := ⟨S384x384x384, .i1⟩) main_call0_v1).ofBuf (Val := Elt F) ((TRef.of (T := ⟨S384x384x384, .i1⟩) main_call0_v1).toBuf (Val := Elt F)
                    (broadcastInDim S384x384x384 ![0, 1, 2] bcast_S384x384x1_S384x384x384_0_1_2
                      ((TRef.of (T := ⟨S384x384x1, .i1⟩) main_v61).ofBuf (Val := Elt F) Z61))))
                  ((TRef.of (T := ⟨S384x384x384, .f32⟩) main_call0_v2).ofBuf (Val := Elt F) ((TRef.of (T := ⟨S384x384x384, .f32⟩) main_call0_v2).toBuf (Val := Elt F)
                    (broadcastInDim S384x384x384 ![] bcast_S_S384x384x384
                      ((TRef.of (T := ⟨S_, .f32⟩) main_call0_v0).ofBuf (Val := Elt F) ((TRef.of (T := ⟨S_, .f32⟩) main_call0_v0).toBuf (Val := Elt F)
                        (id ((TRef.of (T := ⟨S_, .f32⟩) main_cst_7).ofBuf (Val := Elt F) K0)))))))
                  ((TRef.of (T := ⟨S384x384x384, .f32⟩) main_v48).ofBuf (Val := Elt F) Q48)))
              iMax reducesTo_S384x384x384_S384x384_d1 h_S_))))
      iMin reducesTo_S384x384_S384_d1 h_S_
    = Host.reduce FloatOps.minimumf
        (select Sm (broadcastInDim S384x384 ![] bcast_S_S384x384 (id Kinf))
          (Host.reduce FloatOps.maximumf
            (select (broadcastInDim S384x384x384 ![0, 1, 2] bcast_S384x384x1_S384x384x384_0_1_2 Z61)
              (broadcastInDim S384x384x384 ![] bcast_S_S384x384x384 (id K0)) Q48)
            iMax reducesTo_S384x384x384_S384x384_d1 h_S_))
        iMin reducesTo_S384x384_S384_d1 h_S_ := by
  rw [peel_inner (F := F) Z61 K0 Q48]
  exact congrArg (fun x : (⟨S384x384, .f32⟩ : BufTy).Contents (Elt F) =>
    Host.reduce FloatOps.minimumf x iMin reducesTo_S384x384_S384_d1 h_S_) (peel_outer (F := F) Sm Kinf _)

end Cert.ReferenceIdeal.Margin

end
-- ==== Proof.PayloadAt.lean ====
import proofs.«138932_j87093346828907_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Margin

open Idealize.ShloMosaic Idealize.ShloMosaic.ValueIdx Cert.KernelIdeal Cert.KernelIdeal.Gen

/-! ## The layout operations of the body, read at explicit coordinates -/

section Layout
variable {α : Type}

/-- A [16,384] block viewed as [16,1,384]: entry (p, u, k) is entry (p, k). -/
theorem cast_row_apply (x : S16x384.Idx → α) (h : S16x384.ShapeCasts S16x1x384) (p : Fin 16) (u : Fin 1) (k : Fin 384) :
    shapeCast S16x1x384 x h (ix3 p u k) = x (ix2 p k) :=
  shapeCast_apply x h _ _ (by
    have hu : u.val = 0 := by omega
    rw [Shape.rowMajor_val_two, Shape.rowMajor_val_three]
    show p.val * 384 + k.val = (p.val * 1 + u.val) * 384 + k.val
    omega)

/-- A [16,384] block viewed as [16,384,1]: entry (p, j, u) is entry (p, j). -/
theorem cast_col_apply (x : S16x384.Idx → α) (h : S16x384.ShapeCasts S16x384x1) (p : Fin 16) (j : Fin 384) (u : Fin 1) :
    shapeCast S16x384x1 x h (ix3 p j u) = x (ix2 p j) :=
  shapeCast_apply x h _ _ (by
    have hu : u.val = 0 := by omega
    rw [Shape.rowMajor_val_two, Shape.rowMajor_val_three]
    show p.val * 384 + j.val = (p.val * 384 + j.val) * 1 + u.val
    omega)

/-- The [384,384] matrix viewed as [1,384,384]: entry (u, j, k) is entry (j, k). -/
theorem cast_mat_apply (x : S384x384.Idx → α) (h : S384x384.ShapeCasts S1x384x384) (u : Fin 1) (j k : Fin 384) :
    shapeCast S1x384x384 x h (ix3 u j k) = x (ix2 j k) :=
  shapeCast_apply x h _ _ (by
    have hu : u.val = 0 := by omega
    rw [Shape.rowMajor_val_two, Shape.rowMajor_val_three]
    show j.val * 384 + k.val = (u.val * 384 + j.val) * 384 + k.val
    omega)

/-- A [16] vector viewed as the column [16,1]: entry (p, u) is entry p. -/
theorem cast_keep_apply (x : S16.Idx → α) (h : S16.ShapeCasts S16x1) (p : Fin 16) (u : Fin 1) :
    shapeCast S16x1 x h (ix2 p u) = x (ix1 p) :=
  shapeCast_apply x h _ _ (by
    have hu : u.val = 0 := by omega
    rw [Shape.rowMajor_val_one, Shape.rowMajor_val_two]
    show p.val = p.val * 1 + u.val
    omega)

/-- [16,1,384] repeated along the middle axis to [16,384,384]: entry (p, j, k) is entry (p, 0, k). -/
theorem bcast_row_apply (x : S16x1x384.Idx → α) (h : S16x1x384.Broadcasts S16x384x384) (p : Fin 16) (j k : Fin 384) :
    broadcastTo S16x384x384 x h (ix3 p j k) = x (ix3 p (0 : Fin 1) k) :=
  broadcastTo_apply x h _ _ fun a => match a with
    | ⟨0, _⟩ => rfl
    | ⟨1, _⟩ => rfl
    | ⟨2, _⟩ => rfl

/-- [16,384,1] repeated along the last axis to [16,384,384]: entry (p, j, k) is entry (p, j, 0). -/
theorem bcast_col_apply (x : S16x384x1.Idx → α) (h : S16x384x1.Broadcasts S16x384x384) (p : Fin 16) (j k : Fin 384) :
    broadcastTo S16x384x384 x h (ix3 p j k) = x (ix3 p j (0 : Fin 1)) :=
  broadcastTo_apply x h _ _ fun a => match a with
    | ⟨0, _⟩ => rfl
    | ⟨1, _⟩ => rfl
    | ⟨2, _⟩ => rfl

/-- [1,384,384] repeated along the first axis to [16,384,384]: entry (p, j, k) is entry (0, j, k). -/
theorem bcast_mat_apply (x : S1x384x384.Idx → α) (h : S1x384x384.Broadcasts S16x384x384) (p : Fin 16) (j k : Fin 384) :
    broadcastTo S16x384x384 x h (ix3 p j k) = x (ix3 (0 : Fin 1) j k) :=
  broadcastTo_apply x h _ _ fun a => match a with
    | ⟨0, _⟩ => rfl
    | ⟨1, _⟩ => rfl
    | ⟨2, _⟩ => rfl

end Layout

/-! ## The two reductions, as folds over the reduced coordinate -/

/-- The maximum over the middle axis of a [16,384,384] value, at (p, k): the fold of max from the
    accumulator over j of the entries (p, j, k). -/
theorem redmax_apply (src : FVec Ideal S16x384x384 .f32) (h : S16x384x384.Reduces [1] S16x384) (hφ : FKind.Formats .f32)
    (hacc : (0xFF800000#32 : BitVec 32) = FKind.maximumf.neutral .f32 hφ) (p : Fin 16) (k : Fin 384) :
    multiReduction .maximumf [1] S16x384 src 0xFF800000#32 h hφ hacc (ix2 p k)
      = (Finset.univ : Finset (Fin 384)).fold max (Ideal.ofBits .f32 0xFF800000#32) (fun j => src (ix3 p j k)) := by
  refine (Ideal.multiReduction_maximumf_single src _ h hφ hacc (ix2 p k)).trans ?_
  refine congrArg (fun f => Finset.fold max (Ideal.ofBits .f32 0xFF800000#32) f (Finset.univ : Finset (Fin 384))) ?_
  funext j
  refine congrArg src (funext fun c => Fin.ext ?_)
  match c with
  | ⟨0, _⟩ => rfl
  | ⟨1, _⟩ => rfl
  | ⟨2, _⟩ => rfl

/-- The minimum over the last axis of a [16,384] value, at p: the fold of min from the accumulator
    over k of the entries (p, k). -/
theorem redmin_apply (src : FVec Ideal S16x384 .f32) (h : S16x384.Reduces [1] S16) (hφ : FKind.Formats .f32)
    (hacc : (0x7F800000#32 : BitVec 32) = FKind.minimumf.neutral .f32 hφ) (p : Fin 16) :
    multiReduction .minimumf [1] S16 src 0x7F800000#32 h hφ hacc (ix1 p)
      = (Finset.univ : Finset (Fin 384)).fold min (Ideal.ofBits .f32 0x7F800000#32) (fun k => src (ix2 p k)) := by
  refine (multiReduction_minimumf_eq_fold src _ h hφ hacc (ix1 p)).trans ?_
  refine (h.fold_filter_drop_single _ _ src (ix1 p)).trans ?_
  refine congrArg (fun f => Finset.fold min (Ideal.ofBits .f32 0x7F800000#32) f (Finset.univ : Finset (Fin 384))) ?_
  funext k
  refine congrArg src (funext fun c => Fin.ext ?_)
  match c with
  | ⟨0, _⟩ => rfl
  | ⟨1, _⟩ => rfl

/-! ## The pointwise stages over variables, and the assembly -/

/-- The quotient under the inner maximum at (p, j, k): the positive part of x0[p,k] − x0[p,j], times the
    weight x2[p,j], over the denominator x1[j,k]. The identity casts vanish, each broadcast reads its
    operand at the kept coordinates, and the arithmetic is pointwise. -/
theorem ratio_apply (x0 x2 : FVec Ideal S16x384 .f32) (x1 : FVec Ideal S384x384 .f32)
    (hid : S16x384.ShapeCasts S16x384) (hrow : S16x384.ShapeCasts S16x1x384) (hcol : S16x384.ShapeCasts S16x384x1)
    (hbrow : S16x1x384.Broadcasts S16x384x384) (hbcol : S16x384x1.Broadcasts S16x384x384)
    (hidm : S384x384.ShapeCasts S384x384) (hmat : S384x384.ShapeCasts S1x384x384)
    (hbmat : S1x384x384.Broadcasts S16x384x384) (p : Fin 16) (j k : Fin 384) :
    divf
        (mulf
          (maximumf
            (subf (broadcastTo S16x384x384 (shapeCast S16x1x384 (shapeCast S16x384 x0 hid) hrow) hbrow)
              (broadcastTo S16x384x384 (shapeCast S16x384x1 (shapeCast S16x384 x0 hid) hcol) hbcol))
            (broadcast S16x384x384 (Scalar.ofBits (F := Ideal) .f32 0x00000000#32)))
          (broadcastTo S16x384x384 (shapeCast S16x384x1 (shapeCast S16x384 x2 hid) hcol) hbcol))
        (broadcastTo S16x384x384 (shapeCast S1x384x384 (shapeCast S384x384 x1 hidm) hmat) hbmat) (ix3 p j k)
      = Ideal.div (max (x0 (ix2 p k) - x0 (ix2 p j)) (Ideal.ofBits .f32 0x00000000#32) * x2 (ix2 p j)) (x1 (ix2 j k)) := by
  rw [shapeCast_self x0 hid, shapeCast_self x2 hid, shapeCast_self x1 hidm]
  show Ideal.div
      (max (broadcastTo S16x384x384 (shapeCast S16x1x384 x0 hrow) hbrow (ix3 p j k)
            - broadcastTo S16x384x384 (shapeCast S16x384x1 x0 hcol) hbcol (ix3 p j k)) (Ideal.ofBits .f32 0x00000000#32)
        * broadcastTo S16x384x384 (shapeCast S16x384x1 x2 hcol) hbcol (ix3 p j k))
      (broadcastTo S16x384x384 (shapeCast S1x384x384 x1 hmat) hbmat (ix3 p j k)) = _
  rw [bcast_row_apply, bcast_col_apply, bcast_col_apply, bcast_mat_apply,
    cast_row_apply, cast_col_apply, cast_col_apply, cast_mat_apply]

/-- The masking stage at (p, k): where the second mask exceeds one half the value is +inf, elsewhere it is
    the reduced value. -/
theorem masked_apply (m r : FVec Ideal S16x384 .f32) (hid : S16x384.ShapeCasts S16x384) (p : Fin 16) (k : Fin 384)
    (R : Ideal .f32) (hr : r (ix2 p k) = R) :
    select
        (cmpf .ogt (shapeCast S16x384 m hid) (broadcast S16x384 (Scalar.ofBits (F := Ideal) .f32 0x3F000000#32)))
        (broadcast S16x384 (Scalar.ofBits (F := Ideal) .f32 0x7F800000#32)) r (ix2 p k)
      = Scalar.select (FloatOps.cmpf (F := Ideal) .ogt (m (ix2 p k)) (Ideal.ofBits .f32 0x3F000000#32))
          (Ideal.ofBits .f32 0x7F800000#32) R := by
  rw [shapeCast_self m hid, ← hr]
  rfl

theorem pay_at (x0 x2 : Vec Ideal S16x384 .f32) (x1 : Vec Ideal S384x384 .f32) (x3 : Vec Ideal S16x384 .f32) (p : Fin 16) :
    k0_pay1 (F := Ideal) x0 x2 x1 x3 (ix2 p (0 : Fin 1))
      = (Finset.univ : Finset (Fin 384)).fold min (Ideal.ofBits .f32 0x7F800000#32) (fun k =>
          Scalar.select (FloatOps.cmpf (F := Ideal) .ogt (x3 (ix2 p k)) (Ideal.ofBits .f32 0x3F000000#32)) (Ideal.ofBits .f32 0x7F800000#32)
            ((Finset.univ : Finset (Fin 384)).fold max (Ideal.ofBits .f32 0xFF800000#32) (fun j =>
              Ideal.div (max (x0 (ix2 p k) - x0 (ix2 p j)) (Ideal.ofBits .f32 0x00000000#32) * x2 (ix2 p j)) (x1 (ix2 j k))))) := by
  unfold k0_pay1
  refine (cast_keep_apply _ _ p 0).trans ?_
  refine (redmin_apply _ _ _ _ p).trans ?_
  refine Finset.fold_congr fun k _ => ?_
  refine masked_apply _ _ _ p k _ ?_
  refine (redmax_apply _ _ _ _ p k).trans ?_
  refine Finset.fold_congr fun j _ => ?_
  exact ratio_apply x0 x2 x1 _ _ _ _ _ _ _ _ p j k

end Cert.KernelIdeal.Margin

end
-- ==== Proof.KernelValue.lean ====
/-
  The kernel's value. The pallas_call runs over 24 grid points; point `t` reads rows `16t … 16t+15` of the distance matrix `C`,
  of the 0/1 mask `Vj` and of the class indicator `Sf`, and the whole denominator `D`, and writes rows `16t … 16t+15` of a
  [384, 1] array. Row `r` of that array is

      min over k of ( +∞ if Sf[r,k] > 1/2, else max over j of  max (C[r,k] − C[r,j]) 0 · Vj[r,j] / D[j,k] ),

  the two reductions being folds from `+∞` and from `−∞` over the 384 coordinates of the reduced axis. Each block of the
  result is the restriction of that one whole-array function, the 24 row blocks tile the array, and the host line after the
  region reshapes [384, 1] to [384].
-/
import proofs.«138932_j87093346828907_1_alg».proof.Proof.Gen.KernelIdeal.Frame
import proofs.«138932_j87093346828907_1_alg».proof.Proof.PayloadAt
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Margin

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The result as one function of the four arrays the region reads -/

/-- Row `r` of the result: the minimum over `k`, from `+∞`, of `+∞` where the class indicator `Sf[r,k]` exceeds one half and
    otherwise of the maximum over `j`, from `−∞`, of `max (C[r,k] − C[r,j]) 0 · Vj[r,j] / D[j,k]`. -/
def rowMin (C D Vj Sf : Vec Ideal S384x384 .f32) (r : Fin 384) : EReal :=
  (Finset.univ : Finset (Fin 384)).fold min (Ideal.ofBits .f32 0x7F800000#32) (fun k =>
    Scalar.select (FloatOps.cmpf (F := Ideal) .ogt (Sf (ix2 r k)) (Ideal.ofBits .f32 0x3F000000#32)) (Ideal.ofBits .f32 0x7F800000#32)
      ((Finset.univ : Finset (Fin 384)).fold max (Ideal.ofBits .f32 0xFF800000#32) (fun j =>
        Ideal.div (max (C (ix2 r k) - C (ix2 r j)) (Ideal.ofBits .f32 0x00000000#32) * Vj (ix2 r j)) (D (ix2 j k)))))

/-- The [384, 1] array the region writes: row `r` holds `rowMin … r`. -/
def colOut (C D Vj Sf : Vec Ideal S384x384 .f32) : Vec Ideal S384x1 .f32 := fun i => rowMin C D Vj Sf (i 0)

/-- The body's stored value at row `p` of its block is `rowMin` at row `r` of the arrays, when the three row blocks are
    rows `r` of their arrays at the block's row `p` and the fourth operand is the whole denominator. -/
theorem rowMin_of_blocks (C D Vj Sf : Vec Ideal S384x384 .f32) (x0 x2 x3 : Vec Ideal S16x384 .f32) (x1 : Vec Ideal S384x384 .f32)
    (p : Fin 16) (r : Fin 384) (b0 : ∀ k : Fin 384, x0 (ix2 p k) = C (ix2 r k)) (b2 : ∀ k : Fin 384, x2 (ix2 p k) = Vj (ix2 r k))
    (b3 : ∀ k : Fin 384, x3 (ix2 p k) = Sf (ix2 r k)) (b1 : ∀ j k : Fin 384, x1 (ix2 j k) = D (ix2 j k)) :
    k0_pay1 (F := Ideal) x0 x2 x1 x3 (ix2 p (0 : Fin 1)) = rowMin C D Vj Sf r := by
  rw [pay_at]
  unfold rowMin
  simp only [b0, b1, b2, b3]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three row-blocked inputs move with the output's row block and start at
    column 0; the denominator's one block is the whole array. -/
theorem idx_facts : ∀ t : Fin cfg0.N, win0_0.index t (0 : Fin 2) = win0_4.index t (0 : Fin 2)
    ∧ win0_0.index t (1 : Fin 2) = 0
    ∧ win0_2.index t (0 : Fin 2) = win0_4.index t (0 : Fin 2)
    ∧ win0_2.index t (1 : Fin 2) = 0
    ∧ win0_3.index t (0 : Fin 2) = win0_4.index t (0 : Fin 2)
    ∧ win0_3.index t (1 : Fin 2) = 0
    ∧ win0_1.index t (0 : Fin 2) = 0
    ∧ win0_1.index t (1 : Fin 2) = 0
    ∧ win0_4.index t (0 : Fin 2) ≤ 23
    ∧ win0_4.index t (1 : Fin 2) = 0 :=
  (by decide +kernel : ∀ t : Fin grid0.N, _)

/-- Every row block is some point's. -/
theorem idx_onto : ∀ q : Fin 24, ∃ t : Fin cfg0.N, win0_4.index t = ![q.val, 0] :=
  (by decide +kernel : ∀ q : Fin 24, ∃ t : Fin grid0.N, win0_4.index t = ![q.val, 0])

/-- The array row under row `p` of point `t`'s output block. -/
def rowOf (t : Fin cfg0.N) (p : Fin 16) : Fin 384 :=
  ⟨win0_4.index t (0 : Fin 2) * 16 + p.val, by have := (idx_facts t).2.2.2.2.2.2.2.2.1; have := p.isLt; omega⟩

/-! Where each block sits in its array: a block's coordinate is index × size + 1 × the coordinate inside. -/

theorem emb4 (t : Fin cfg0.N) (p : Fin 16) : ((cfg0.win 4).blk t).view.emb (ix2 p (0 : Fin 1)) = ix2 (rowOf t p) (0 : Fin 1) := by
  obtain ⟨e0, e1, e2, e3, e4, e5, e6, e7, e8, e9⟩ := idx_facts t
  funext a; apply Fin.ext
  match a with
  | ⟨0, _⟩ => show win0_4.index t (0 : Fin 2) * 16 + 1 * p.val = win0_4.index t (0 : Fin 2) * 16 + p.val; omega
  | ⟨1, _⟩ => show win0_4.index t (1 : Fin 2) * 1 + 1 * 0 = 0; omega

theorem emb0 (t : Fin cfg0.N) (p : Fin 16) (k : Fin 384) : ((cfg0.win 0).blk t).view.emb (ix2 p k) = ix2 (rowOf t p) k := by
  obtain ⟨e0, e1, e2, e3, e4, e5, e6, e7, e8, e9⟩ := idx_facts t
  funext a; apply Fin.ext
  match a with
  | ⟨0, _⟩ => show win0_0.index t (0 : Fin 2) * 16 + 1 * p.val = win0_4.index t (0 : Fin 2) * 16 + p.val; omega
  | ⟨1, _⟩ => show win0_0.index t (1 : Fin 2) * 384 + 1 * k.val = k.val; omega

theorem emb2 (t : Fin cfg0.N) (p : Fin 16) (k : Fin 384) : ((cfg0.win 2).blk t).view.emb (ix2 p k) = ix2 (rowOf t p) k := by
  obtain ⟨e0, e1, e2, e3, e4, e5, e6, e7, e8, e9⟩ := idx_facts t
  funext a; apply Fin.ext
  match a with
  | ⟨0, _⟩ => show win0_2.index t (0 : Fin 2) * 16 + 1 * p.val = win0_4.index t (0 : Fin 2) * 16 + p.val; omega
  | ⟨1, _⟩ => show win0_2.index t (1 : Fin 2) * 384 + 1 * k.val = k.val; omega

theorem emb3 (t : Fin cfg0.N) (p : Fin 16) (k : Fin 384) : ((cfg0.win 3).blk t).view.emb (ix2 p k) = ix2 (rowOf t p) k := by
  obtain ⟨e0, e1, e2, e3, e4, e5, e6, e7, e8, e9⟩ := idx_facts t
  funext a; apply Fin.ext
  match a with
  | ⟨0, _⟩ => show win0_3.index t (0 : Fin 2) * 16 + 1 * p.val = win0_4.index t (0 : Fin 2) * 16 + p.val; omega
  | ⟨1, _⟩ => show win0_3.index t (1 : Fin 2) * 384 + 1 * k.val = k.val; omega

theorem emb1 (t : Fin cfg0.N) (j k : Fin 384) : ((cfg0.win 1).blk t).view.emb (ix2 j k) = ix2 j k := by
  obtain ⟨e0, e1, e2, e3, e4, e5, e6, e7, e8, e9⟩ := idx_facts t
  funext a; apply Fin.ext
  match a with
  | ⟨0, _⟩ => show win0_1.index t (0 : Fin 2) * 384 + 1 * j.val = j.val; omega
  | ⟨1, _⟩ => show win0_1.index t (1 : Fin 2) * 384 + 1 * k.val = k.val; omega

/-! Each input block read at an index is its array read where the block sits. -/

theorem blk0 (c : Dev nD) (t : Fin cfg0.N) (p : Fin 16) (k : Fin 384) : iblk m c 0 t (ix2 p k) = V m c main_v14 (ix2 (rowOf t p) k) :=
  congrArg (V m c main_v14) (emb0 t p k)
theorem blk2 (c : Dev nD) (t : Fin cfg0.N) (p : Fin 16) (k : Fin 384) : iblk m c 2 t (ix2 p k) = V m c main_v51 (ix2 (rowOf t p) k) :=
  congrArg (V m c main_v51) (emb2 t p k)
theorem blk3 (c : Dev nD) (t : Fin cfg0.N) (p : Fin 16) (k : Fin 384) : iblk m c 3 t (ix2 p k) = V m c main_v42 (ix2 (rowOf t p) k) :=
  congrArg (V m c main_v42) (emb3 t p k)
theorem blk1 (c : Dev nD) (t : Fin cfg0.N) (j k : Fin 384) : iblk m c 1 t (ix2 j k) = V m c main_v36 (ix2 j k) :=
  congrArg (V m c main_v36) (emb1 t j k)

set_option maxHeartbeats 1000000 in
/-- WHAT POINT `t` WRITES BACK is block `t` of `colOut` of the four arrays as the region finds them. -/
theorem flushed_eq (c : Dev nD) (t : Fin cfg0.N) :
    (dats m 0 c).flushed 4 t
      = ((cfg0.win 4).blk t).view.read (Elt Ideal) (colOut (V m c main_v14) (V m c main_v36) (V m c main_v51) (V m c main_v42)) := by
  show (cfg0.win 4).cut (grid0.coords t) ((dats m 0 c).after 4 t) = _
  rw [after0_4]
  unfold out0_4
  rw [View.canon_unit_zero hz]
  simp only [View.ld_unit_zero (S := S16x384) hz, View.ld_unit_zero (S := S384x384) hz]
  funext y
  obtain ⟨p, q, rfl⟩ : ∃ (p : Fin 16) (q : Fin 1), y = ix2 p q := ⟨y 0, y 1, eq_ix2 y⟩
  obtain rfl : q = 0 := Subsingleton.elim _ _
  show k0_pay1 (F := Ideal) (iblk m c 0 t) (iblk m c 2 t) (iblk m c 1 t) (iblk m c 3 t) (ix2 p 0)
      = colOut (V m c main_v14) (V m c main_v36) (V m c main_v51) (V m c main_v42) (((cfg0.win 4).blk t).view.emb (ix2 p 0))
  rw [emb4 t p]
  exact rowMin_of_blocks (V m c main_v14) (V m c main_v36) (V m c main_v51) (V m c main_v42)
    (iblk m c 0 t) (iblk m c 2 t) (iblk m c 3 t) (iblk m c 1 t) p (rowOf t p)
    (fun k => blk0 m c t p k) (fun k => blk2 m c t p k) (fun k => blk3 m c t p k) (fun j k => blk1 m c t j k)

/-- An index of the result array is in point `t`'s block iff each coordinate is in the block's range on its axis. -/
theorem mem_blk (t : Fin cfg0.N) (i : S384x1.Idx) :
    i ∈ ((cfg0.win 4).blk t).view.set ↔ ∀ a : Fin 2, win0_4.index t a * S16x1.size a ≤ (i a).val ∧ (i a).val < win0_4.index t a * S16x1.size a + S16x1.size a := by
  show i ∈ ((View.whole main_v52).slice (win0_4.rect t)).set ↔ _
  rw [View.set_slice_whole, Rect.mem_set_unit]
  exact Iff.rfl

/-- The 24 row blocks tile the result array: row `r` is in the block of the point whose row block is `r / 16`. -/
theorem cover (i : S384x1.Idx) : ∃ t : Fin cfg0.N, (cfg0.win 4).flush t = true ∧ i ∈ ((cfg0.win 4).blk t).view.set := by
  have hi0 : (i 0).val < 384 := (i 0).isLt
  have hi1 : (i 1).val < 1 := (i 1).isLt
  obtain ⟨t, ht⟩ := idx_onto ⟨(i 0).val / 16, by omega⟩
  have q0 : win0_4.index t (0 : Fin 2) = (i 0).val / 16 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 1 ≤ (i 1).val ∧ (i 1).val < win0_4.index t (1 : Fin 2) * 1 + 1; omega

/-- THE RESULT ARRAY after the region: `colOut` of the four arrays the region found. -/
theorem final (c : Dev nD) :
    (dats m 0 c).arrAt 4 cfg0.N = colOut (V m c main_v14) (V m c main_v36) (V m c main_v51) (V m c main_v42) :=
  (dats m 0 c).arrAt_eq_of_cover 4 _ (fun t _ => flushed_eq m c t) cover

/-- The host line after the region reshapes [384, 1] to [384]. -/
theorem tail_eq (c : Dev nD) :
    Pipeline.afterTail₀ cfgs (dats m) 0 (V0 m) [hostOps1] c main_v53
      = shapeCast S384 (colOut (V m c main_v14) (V m c main_v36) (V m c main_v51) (V m c main_v42)) shapeCasts_S384x1_S384 := by
  have hw := (Pipeline.withArrays_arr spec0 launch0.win.arr_inj c (V0 m c) (fun w => (dats m 0 c).arrAt w cfg0.N) 4).trans (final m c)
  unfold Pipeline.afterTail₀
  show StableHlo.after hostOps1 _ (Proc.devRef .tc main_v53) = _
  after_results
  funext i
  exact congrFun (congrArg (fun x : Vec Ideal S384x1 .f32 => shapeCast S384 x shapeCasts_S384x1_S384) hw) i

/-- THE KERNEL'S RUN with its result named: every weakly fair execution terminates with the result at the reshaped `colOut` of
    the four arrays the region found, the arguments unchanged. -/
theorem kernel_run : θ_run defs (onTc (τ := τ) (main (F := Ideal))) ⟨m, fun _ => 0, ρ⟩ (fun r => ∀ c : Dev nD,
      r.2.mem ((c.tc : Thread nD τ).loc main_v53)
        = shapeCast S384 (colOut (V m c main_v14) (V m c main_v36) (V m c main_v51) (V m c main_v42)) shapeCasts_S384x1_S384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v53 (Pipeline.mem_restRefs_of main_v53 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Margin

end
-- ==== Proof.KernelHost.lean ====
/-
  The four arrays the pallas_call reads are computed by the host lines before it, and those lines are the reference's own:
  the distance matrix `C = prod[:, None] + prod[None, :] − 2 · (X·M)·Xᵀ` with `M = Gᵀ·G` is the reference's stage 15 (the
  kernel reuses the product `X·M` that the reference computes twice), the denominator `max (2 · √(max (C₂, ε)), ε)` over
  `M₂ = Mᵀ·M` is its stage 45, the class indicator is the float of the label comparison (the reference compares the same
  two broadcasts of the labels in the other order), and the 0/1 mask is that indicator times `1 −` the float of the
  reference's diagonal mask. Stated for every float instance: the equations are between terms, not values.
-/
import proofs.«138932_j87093346828907_1_alg».proof.Proof.Gen.KernelIdeal.Frame
import proofs.«138932_j87093346828907_1_alg».proof.Proof.RefRead
import Idealize.ShloMosaic.Lib.StableHlo.Run

noncomputable section

namespace Cert.KernelIdeal.Margin

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ)

/-- The float of the label comparison `y[i] = y[j]`, over the reference's two broadcasts of the labels. -/
def sameF (y : (⟨S384, .i32⟩ : BufTy).Contents (Elt F)) : FVec F S384x384 .f32 :=
  uitofp .f32 (cmpi .eq (Cert.ReferenceIdeal.ReadP.val_main_v52 (F := F) y) (Cert.ReferenceIdeal.ReadP.val_main_v51 (F := F) y))

/-- The 0/1 mask: same class and off the diagonal. -/
def validF (y : (⟨S384, .i32⟩ : BufTy).Contents (Elt F)) : FVec F S384x384 .f32 :=
  mulf (sameF (F := F) y)
    (subf (broadcastInDim S384x384 ![] bcast_S_S384x384 (constant S_ .f32 0x3F800000#32))
      (uitofp .f32 (Cert.ReferenceIdeal.ReadP.val_main_v59 (F := F))))

set_option maxRecDepth 16384 in
set_option maxHeartbeats 4000000 in
/-- The distance matrix the region finds is the reference's. -/
theorem V_dist (c : Dev nD) :
    V m c main_v14 = Cert.ReferenceIdeal.ReadP.val_main_v15 (F := F) (m ((c : Thread nD τ).loc main_arg0)) (m ((c : Thread nD τ).loc main_arg1)) := by
  show StableHlo.after hostOps0 (fun b => m (c, b)) (Proc.devRef .tc main_v14) = _
  after_results
  rfl

set_option maxRecDepth 16384 in
set_option maxHeartbeats 4000000 in
/-- The denominator the region finds is the reference's. -/
theorem V_denom (c : Dev nD) :
    V m c main_v36 = Cert.ReferenceIdeal.ReadP.val_main_v45 (F := F) (m ((c : Thread nD τ).loc main_arg0)) (m ((c : Thread nD τ).loc main_arg1)) := by
  show StableHlo.after hostOps0 (fun b => m (c, b)) (Proc.devRef .tc main_v36) = _
  after_results
  rfl

set_option maxRecDepth 16384 in
set_option maxHeartbeats 4000000 in
/-- The class indicator the region finds. -/
theorem V_same (c : Dev nD) : V m c main_v42 = sameF (F := F) (m ((c : Thread nD τ).loc main_arg2)) := by
  show StableHlo.after hostOps0 (fun b => m (c, b)) (Proc.devRef .tc main_v42) = _
  after_results
  rfl

set_option maxRecDepth 16384 in
set_option maxHeartbeats 4000000 in
/-- The 0/1 mask the region finds. -/
theorem V_valid (c : Dev nD) : V m c main_v51 = validF (F := F) (m ((c : Thread nD τ).loc main_arg2)) := by
  show StableHlo.after hostOps0 (fun b => m (c, b)) (Proc.devRef .tc main_v51) = _
  after_results
  rfl

end Cert.KernelIdeal.Margin

end
-- ==== Proof.RefAt.lean ====
import proofs.«138932_j87093346828907_1_alg».proof.Proof.RefRead
import Idealize.ShloMosaic.Lib.ValueIdx
import Idealize.ShloMosaic.Lib.Pipeline.Value
import Idealize.ShloMosaic.PureOps.Ideal.Laws

/-! The reference's result at a row, as two folds.

For the distance matrix `C`, the denominator `D` and the two label masks, the reference's last stages form
`diff[i,j,k] = max (C[i,k] − C[i,j]) 0`, divide by `D[j,k]`, put `0` where the first mask holds at `(i,j)`, take the
maximum over `j` from `−∞`, put `+∞` where the second mask holds at `(i,k)`, and take the minimum over `k` from `+∞`.
Each of the two reductions is over one axis with a commutative and associative body, so at an index it is a fold over
`Fin 384`; every other stage reads one element of each operand, so the three-index element is read back to `C`, `D`
and the masks at two-index positions. -/

noncomputable section

namespace Cert.ReferenceIdeal.Margin

open Idealize.ShloMosaic Idealize.ShloMosaic.ValueIdx Cert.ReferenceIdeal Cert.ReferenceIdeal.Gen Cert.ReferenceIdeal.ReadP

/-- A row index `i` with the coordinate `k` put back on axis 1 is `(i, k)`. -/
theorem lift_row (h : S384x384.Reduces [1] S384) (i k : Fin 384) : h.lift (ix1 i) k = ix2 i k := by
  funext c; apply Fin.ext
  match c with
  | ⟨0, _⟩ => rfl
  | ⟨1, _⟩ => rfl

/-- A matrix index `(i, k)` with the coordinate `j` put back on axis 1 is `(i, j, k)`. -/
theorem lift_mid (h : S384x384x384.Reduces [1] S384x384) (i k j : Fin 384) : h.lift (ix2 i k) j = ix3 i j k := by
  funext c; apply Fin.ext
  match c with
  | ⟨0, _⟩ => rfl
  | ⟨1, _⟩ => rfl
  | ⟨2, _⟩ => rfl

/-- The masked margin at `(i, j, k)`: `0` where the mask holds at `(i, j)`, else `max (C[i,k] − C[i,j]) 0 / D[j,k]`. -/
theorem masked_at (x0 : (⟨S384x128, .f32⟩ : BufTy).Contents (Elt Ideal)) (x1 : (⟨S128x128, .f32⟩ : BufTy).Contents (Elt Ideal))
    (x2 : (⟨S384, .i32⟩ : BufTy).Contents (Elt Ideal)) (i j k : Fin 384) :
    val_main_v62 (F := Ideal) x0 x1 x2 (ix3 i j k)
      = Scalar.select (val_main_v60 (F := Ideal) x2 (ix2 i j)) (Ideal.ofBits .f32 0x00000000#32)
          (Ideal.div (max (val_main_v15 (F := Ideal) x0 x1 (ix2 i k) - val_main_v15 (F := Ideal) x0 x1 (ix2 i j)) (Ideal.ofBits .f32 0x00000000#32))
            (val_main_v45 (F := Ideal) x0 x1 (ix2 j k))) := by
  have e60 : idx_main_v61 (idx_main_call0_v1 (ix3 i j k)) = ix2 i j :=
    funext fun a => Fin.ext (by match a with | ⟨0, _⟩ => rfl | ⟨1, _⟩ => rfl)
  have e18 : idx_main_v16 (idx_main_v18 (ix3 i j k)) = ix2 i k :=
    funext fun a => Fin.ext (by match a with | ⟨0, _⟩ => rfl | ⟨1, _⟩ => rfl)
  have e19 : idx_main_v17 (idx_main_v19 (ix3 i j k)) = ix2 i j :=
    funext fun a => Fin.ext (by match a with | ⟨0, _⟩ => rfl | ⟨1, _⟩ => rfl)
  have e47 : idx_main_v46 (idx_main_v47 (ix3 i j k)) = ix2 j k :=
    funext fun a => Fin.ext (by match a with | ⟨0, _⟩ => rfl | ⟨1, _⟩ => rfl)
  rw [val_main_v62_apply, val_main_call0_v1_apply, val_main_v61_apply, e60, val_main_call0_v2_apply, val_main_call0_v0_apply,
    val_main_cst_7_apply, val_main_v48_apply, val_main_v22_apply, val_main_v20_apply, val_main_v18_apply, val_main_v16_apply, e18,
    val_main_v19_apply, val_main_v17_apply, e19, val_main_v21_apply, val_main_cst_1_apply, val_main_v47_apply, val_main_v46_apply, e47]
  rfl

theorem ref_at (x0 : (⟨S384x128, .f32⟩ : BufTy).Contents (Elt Ideal)) (x1 : (⟨S128x128, .f32⟩ : BufTy).Contents (Elt Ideal))
    (x2 : (⟨S384, .i32⟩ : BufTy).Contents (Elt Ideal)) (i : Fin 384) :
    val_main_v65 (F := Ideal) x0 x1 x2 (ix1 i)
      = (Finset.univ : Finset (Fin 384)).fold min (Ideal.ofBits .f32 0x7F800000#32) (fun k =>
          Scalar.select (val_main_v53 (F := Ideal) x2 (ix2 i k)) (Ideal.ofBits .f32 0x7F800000#32)
            ((Finset.univ : Finset (Fin 384)).fold max (Ideal.ofBits .f32 0xFF800000#32) (fun j =>
              Scalar.select (val_main_v60 (F := Ideal) x2 (ix2 i j)) (Ideal.ofBits .f32 0x00000000#32)
                (Ideal.div (max (val_main_v15 (F := Ideal) x0 x1 (ix2 i k) - val_main_v15 (F := Ideal) x0 x1 (ix2 i j)) (Ideal.ofBits .f32 0x00000000#32))
                  (val_main_v45 (F := Ideal) x0 x1 (ix2 j k)))))) := by
  have hr1 : S384x384.Reduces [1] S384 := by decide
  have hr2 : S384x384x384.Reduces [1] S384x384 := by decide
  unfold val_main_v65
  refine Eq.trans (Host.reduce_eq_fold_single FloatOps.minimumf _ _ reducesTo_S384x384_S384_d1 hr1 h_S_ (ix1 i)) ?_
  show (Finset.univ : Finset (Fin 384)).fold min (Ideal.ofBits .f32 0x7F800000#32)
      (fun k => val_main_v64 (F := Ideal) x0 x1 x2 (hr1.lift (ix1 i) k)) = _
  refine Finset.fold_congr (fun (k : Fin 384) _ => ?_)
  rw [lift_row, val_main_v64_apply, val_main_call1_v1_apply, val_main_call1_v0_apply, val_main_cst_9_apply]
  refine congrArg (Scalar.select _ _) ?_
  unfold val_main_v63
  refine Eq.trans (Host.reduce_eq_fold_single FloatOps.maximumf _ _ reducesTo_S384x384x384_S384x384_d1 hr2 h_S_ (ix2 i k)) ?_
  show (Finset.univ : Finset (Fin 384)).fold max (Ideal.ofBits .f32 0xFF800000#32)
      (fun j => val_main_v62 (F := Ideal) x0 x1 x2 (hr2.lift (ix2 i k) j)) = _
  refine Finset.fold_congr (fun (j : Fin 384) _ => ?_)
  rw [lift_mid, masked_at]

end Cert.ReferenceIdeal.Margin

end
-- ==== Proof.MaskLaw.lean ====
/-
  Scalar facts at the ideal instance behind the comparison of the two margin cubes.

  The kernel multiplies the clipped difference by a 0/1 factor `s · (1 − e)` (`s` the indicator "same class", `e` the
  indicator "same index") and then divides by the denominator; the reference divides first and then replaces the quotient
  by `0` where `¬ s ∨ e`. On the extended reals `x · 1 = x`, `x · 0 = 0` and `0 / d = 0` for `d ≠ 0`, so the two agree
  wherever the denominator is not zero — and the denominator is a maximum with a positive constant. The kernel selects
  `+∞` where the 0/1 factor `s` exceeds one half, the reference where the bit `s` is set: the same places.
-/
import Idealize.ShloMosaic.PureOps.Ideal
import Idealize.ShloMosaic.PureOps.Ideal.Laws

noncomputable section

namespace Cert.Margin

open Idealize.ShloMosaic

/-- A one-bit word is `0` or `1`. -/
theorem bit_cases (s : BitVec 1) : s = 0#1 ∨ s = 1#1 := by
  rcases s with ⟨⟨v, hv⟩⟩
  have : v = 0 ∨ v = 1 := by omega
  rcases this with rfl | rfl
  · exact Or.inl rfl
  · exact Or.inr rfl

/-- The pattern of `1.0` denotes `1`. -/
theorem ofBits_one : Ideal.ofBits .f32 0x3F800000#32 = 1 := by
  simp [Ideal.ofBits, Ideal.ieee, -EReal.coe_mul]; norm_num

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The floor constant of the denominator (the float nearest `1e-6`) denotes a positive real. -/
theorem eps_pos : (0 : EReal) < Ideal.ofBits .f32 0x358637BD#32 := by
  simp [Ideal.ofBits, Ideal.ieee, -EReal.coe_mul]

/-- A maximum with that constant is not zero. -/
theorem max_eps_ne_zero (a : EReal) : max a (Ideal.ofBits .f32 0x358637BD#32) ≠ 0 :=
  ne_of_gt (lt_of_lt_of_le eps_pos (le_max_right _ _))

/-- The unsigned value of a one-bit word, as an extended real. -/
theorem uitofp_zero : FloatOps.uitofp (F := Ideal) .f32 (0#1 : BitVec 1) = 0 := by
  show (((0#1 : BitVec 1).toNat : ℝ) : EReal) = 0
  simp
theorem uitofp_one : FloatOps.uitofp (F := Ideal) .f32 (1#1 : BitVec 1) = 1 := by
  show (((1#1 : BitVec 1).toNat : ℝ) : EReal) = 1
  simp

/-- Equality of two words, as a bit, does not depend on their order. -/
theorem cmpi_eq_comm (a b : BitVec 32) : IntOp.cmpi .eq a b = IntOp.cmpi .eq b a := by
  unfold IntOp.cmpi
  by_cases h : a = b
  · subst h; rfl
  · have h' : ¬ b = a := fun e => h e.symm
    rw [beq_false_of_ne h, beq_false_of_ne h']

/-- The indicator of a bit exceeds one half exactly where the bit is set. -/
theorem indicator_gt_half (s : BitVec 1) :
    FloatOps.cmpf (F := Ideal) .ogt (FloatOps.uitofp (F := Ideal) .f32 s) (Ideal.ofBits .f32 0x3F000000#32) = s := by
  rw [Ideal.cmpf_def, ofBits_half]
  rcases bit_cases s with rfl | rfl
  · rw [uitofp_zero]
    have : ¬ (((1 / 2 : ℝ) : EReal) < 0) := by
      rw [not_lt]; exact_mod_cast (by norm_num : (0 : ℝ) ≤ 1 / 2)
    show BitVec.ofBool (decide (((1 / 2 : ℝ) : EReal) < 0)) = 0#1
    rw [decide_eq_false this]; rfl
  · rw [uitofp_one]
    have : (((1 / 2 : ℝ) : EReal) < 1) := by exact_mod_cast (by norm_num : (1 / 2 : ℝ) < 1)
    show BitVec.ofBool (decide (((1 / 2 : ℝ) : EReal) < 1)) = 1#1
    rw [decide_eq_true this]; rfl

/-- A zero numerator over a denominator that is not zero. -/
theorem zero_div (d : EReal) (hd : d ≠ 0) : Ideal.div 0 d = 0 := by
  unfold Ideal.div
  rw [if_neg hd, zero_mul]

/-- Multiplying by the 0/1 factor and then dividing is dividing and then masking, off a zero denominator. -/
theorem masked_div (s e : BitVec 1) (x d : EReal) (hd : d ≠ 0) :
    Ideal.div (x * (FloatOps.uitofp (F := Ideal) .f32 s * (Ideal.ofBits .f32 0x3F800000#32 - FloatOps.uitofp (F := Ideal) .f32 e))) d
      = Scalar.select (IntOp.ori (~~~ s) e) (Ideal.ofBits .f32 0x00000000#32) (Ideal.div x d) := by
  rw [ofBits_one, Ideal.ofBits_zero_f32]
  rcases bit_cases s with rfl | rfl <;> rcases bit_cases e with rfl | rfl
  · rw [uitofp_zero, zero_mul, mul_zero, zero_div d hd]
    exact (if_pos (by decide)).symm
  · rw [uitofp_zero, zero_mul, mul_zero, zero_div d hd]
    exact (if_pos (by decide)).symm
  · rw [uitofp_one, uitofp_zero, sub_zero, mul_one, mul_one]
    exact (if_neg (by decide)).symm
  · rw [uitofp_one, sub_self_one, mul_zero, mul_zero, zero_div d hd]
    exact (if_pos (by decide)).symm
where
  sub_self_one : (1 : EReal) - 1 = 0 := by
    have : ((1 : ℝ) : EReal) - ((1 : ℝ) : EReal) = ((0 : ℝ) : EReal) := by rw [← EReal.coe_sub]; norm_num
    simpa using this

end Cert.Margin

end
-- ==== Proof.Bridge.lean ====
/-
  The comparison. Both programs end, row by row, at

      min over k of ( +∞ where the labels of i and k agree, else max over j of T[i,j,k] ),

  the two reductions being folds over the 384 coordinates of the reduced axis from `+∞` and from `−∞`. The kernel's term is
  `T = max (C[i,k] − C[i,j]) 0 · v[i,j] / D[j,k]` with the 0/1 factor `v = s · (1 − e)`; the reference's is `0` where `¬ s ∨ e`
  and `max (C[i,k] − C[i,j]) 0 / D[j,k]` elsewhere. They agree entry by entry because `D[j,k]` is a maximum with the positive
  constant `ε`, hence not zero (`x · 1 = x`, `x · 0 = 0`, `0 / d = 0` off `d = 0`): no finiteness of the inputs is used. The
  kernel tests the indicator `s` against one half where the reference tests the bit, and the two compare the labels in
  opposite orders.
-/
import proofs.«138932_j87093346828907_1_alg».proof.Proof.KernelValue
import proofs.«138932_j87093346828907_1_alg».proof.Proof.KernelHost
import proofs.«138932_j87093346828907_1_alg».proof.Proof.RefAt
import proofs.«138932_j87093346828907_1_alg».proof.Proof.MaskLaw
import Idealize.ShloMosaic.Lib.ValueIdx
import Idealize.ShloMosaic.Lib.Pipeline.Value

noncomputable section

namespace Cert.KernelIdeal.Margin

open Idealize.ShloMosaic Idealize.ShloMosaic.ValueIdx
open Cert.KernelIdeal Cert.KernelIdeal.Gen
open Cert.ReferenceIdeal.ReadP (val_main_v15 val_main_v45 val_main_v51 val_main_v52 val_main_v53 val_main_v54 val_main_v59 val_main_v60
  val_main_v65 val_main_v43 val_main_v44 val_main_v53_apply val_main_v54_apply val_main_v60_apply val_main_v45_apply val_main_v44_apply
  val_main_cst_6_apply)

variable (X : (⟨Cert.ReferenceIdeal.S384x128, .f32⟩ : BufTy).Contents (Elt Ideal)) (G : (⟨Cert.ReferenceIdeal.S128x128, .f32⟩ : BufTy).Contents (Elt Ideal))
  (y : (⟨Cert.ReferenceIdeal.S384, .i32⟩ : BufTy).Contents (Elt Ideal))

/-- The denominator is a maximum with the positive constant, so it is not zero. -/
theorem denom_ne_zero (j k : Fin 384) : val_main_v45 (F := Ideal) X G (ix2 j k) ≠ 0 := by
  rw [val_main_v45_apply, val_main_v44_apply, val_main_cst_6_apply]
  exact Cert.Margin.max_eps_ne_zero _

/-- The kernel's indicator exceeds one half exactly where the reference's label comparison holds. -/
theorem sel_eq (i k : Fin 384) :
    FloatOps.cmpf (F := Ideal) .ogt (sameF (F := Ideal) y (ix2 i k)) (Ideal.ofBits .f32 0x3F000000#32)
      = val_main_v53 (F := Ideal) y (ix2 i k) := by
  rw [val_main_v53_apply]
  show FloatOps.cmpf (F := Ideal) .ogt (FloatOps.uitofp (F := Ideal) .f32
      (IntOp.cmpi .eq (val_main_v52 (F := Ideal) y (ix2 i k)) (val_main_v51 (F := Ideal) y (ix2 i k)))) (Ideal.ofBits .f32 0x3F000000#32) = _
  rw [Cert.Margin.indicator_gt_half, Cert.Margin.cmpi_eq_comm]

/-- One entry of the two cubes. -/
theorem term_eq (C D : FVec Ideal S384x384 .f32) (i j k : Fin 384) (hd : D (ix2 j k) ≠ 0) :
    Ideal.div (max (C (ix2 i k) - C (ix2 i j)) (Ideal.ofBits .f32 0x00000000#32) * validF (F := Ideal) y (ix2 i j)) (D (ix2 j k))
      = Scalar.select (val_main_v60 (F := Ideal) y (ix2 i j)) (Ideal.ofBits .f32 0x00000000#32)
          (Ideal.div (max (C (ix2 i k) - C (ix2 i j)) (Ideal.ofBits .f32 0x00000000#32)) (D (ix2 j k))) := by
  have hv : validF (F := Ideal) y (ix2 i j)
      = FloatOps.uitofp (F := Ideal) .f32 (IntOp.cmpi .eq (val_main_v52 (F := Ideal) y (ix2 i j)) (val_main_v51 (F := Ideal) y (ix2 i j)))
        * (Ideal.ofBits .f32 0x3F800000#32 - FloatOps.uitofp (F := Ideal) .f32 (val_main_v59 (F := Ideal) (ix2 i j))) := rfl
  rw [hv, Cert.Margin.masked_div _ _ _ _ hd, val_main_v60_apply, val_main_v54_apply, val_main_v53_apply, Cert.Margin.cmpi_eq_comm]

/-- Row `i` of the kernel's result, over the reference's distance matrix and denominator, is row `i` of the reference's. -/
theorem row_eq (i : Fin 384) :
    rowMin (val_main_v15 (F := Ideal) X G) (val_main_v45 (F := Ideal) X G) (validF (F := Ideal) y) (sameF (F := Ideal) y) i
      = val_main_v65 (F := Ideal) X G y (ix1 i) := by
  rw [Cert.ReferenceIdeal.Margin.ref_at]
  unfold rowMin
  refine Finset.fold_congr (fun k _ => ?_)
  rw [sel_eq y i k]
  refine congrArg (Scalar.select _ _) ?_
  refine Finset.fold_congr (fun j _ => ?_)
  exact term_eq y _ _ i j k (denom_ne_zero X G j k)

/-- A [384, 1] column read as a [384] vector: entry `i` is entry `(i, 0)`. -/
theorem squeeze_apply {α : Type} (x : S384x1.Idx → α) (h : S384x1.ShapeCasts S384) (i : Fin 384) :
    shapeCast S384 x h (ix1 i) = x (ix2 i (0 : Fin 1)) :=
  shapeCast_apply x h _ _ (by
    rw [Shape.rowMajor_val_one, Shape.rowMajor_val_two]
    show i.val * 1 + 0 = i.val
    omega)

/-- The kernel's result vector, over the reference's stages, is the reference's result. -/
theorem result_eq :
    shapeCast S384 (colOut (val_main_v15 (F := Ideal) X G) (val_main_v45 (F := Ideal) X G) (validF (F := Ideal) y) (sameF (F := Ideal) y)) shapeCasts_S384x1_S384
      = val_main_v65 (F := Ideal) X G y := by
  funext idx
  obtain ⟨i, rfl⟩ : ∃ i : Fin 384, idx = ix1 i := ⟨idx 0, eq_ix1 idx⟩
  rw [squeeze_apply]
  exact row_eq X G y i

end Cert.KernelIdeal.Margin

end
-- ==== Proof.lean ====
/-
  Pairwise Mahalanobis margins: the Pallas kernel against its jnp reference, over the extended reals.

  Both programs form `M = Gᵀ·G`, the distance matrix `C[i,j] = p[i] + p[j] − 2·((X·M)·Xᵀ)[i,j]` with `p = rowsum ((X·M)∘X)`, and
  from `M₂ = Mᵀ·M` in the same way the denominator `D = max (2·√(max (C₂, ε)), ε)`. The result at row `i` is

      min over k with label(k) ≠ label(i) of  max over j of  m[i,j] · max (C[i,k] − C[i,j], 0) / D[j,k],

  `m[i,j]` being 1 where `label(j) = label(i)` and `j ≠ i` and 0 elsewhere, a row with no such `k` giving `+∞`. The kernel computes
  the host part once, multiplies the clipped difference by the float mask before dividing, takes the two reductions per block
  of 16 rows over a 24-point grid, and reshapes the [384, 1] result; the reference divides first, zeroes by a selection, and
  reduces the whole [384, 384, 384] cube. At the ideal instance the host parts are the same terms, the masked quotients agree
  entry by entry because `D` is a maximum with a positive constant (Proof/MaskLaw.lean, Proof/Bridge.lean), and each reduction
  is the same fold over the 384 coordinates of its axis (Proof/PayloadAt.lean for the kernel's body, Proof/RefAt.lean for the
  reference, Proof/KernelValue.lean for the blocks of the result). The precondition is not used by the value claim.

  The three frames are the generated ones (the reference's is its run with the result dropped); the idealization rewrote
  nothing, so `preserves` is trivial.
-/
import proofs.«138932_j87093346828907_1_alg».proof.Defs
import proofs.«138932_j87093346828907_1_alg».proof.Proof.Gen.Kernel
import proofs.«138932_j87093346828907_1_alg».proof.Proof.Gen.Kernel.Skeleton
import proofs.«138932_j87093346828907_1_alg».proof.Proof.Gen.Kernel.Launch
import proofs.«138932_j87093346828907_1_alg».proof.Proof.Gen.Kernel.Points
import proofs.«138932_j87093346828907_1_alg».proof.Proof.Gen.Kernel.Frame
import proofs.«138932_j87093346828907_1_alg».proof.Proof.Gen.KernelIdeal
import proofs.«138932_j87093346828907_1_alg».proof.Proof.Gen.KernelIdeal.Skeleton
import proofs.«138932_j87093346828907_1_alg».proof.Proof.Gen.KernelIdeal.Launch
import proofs.«138932_j87093346828907_1_alg».proof.Proof.Gen.KernelIdeal.Points
import proofs.«138932_j87093346828907_1_alg».proof.Proof.Gen.KernelIdeal.Frame
import proofs.«138932_j87093346828907_1_alg».proof.Proof.Gen.ReferenceIdeal
import proofs.«138932_j87093346828907_1_alg».proof.Proof.Gen.Pre_finite_inputs
import proofs.«138932_j87093346828907_1_alg».proof.Proof.RefRun
import proofs.«138932_j87093346828907_1_alg».proof.Proof.RefRead
import proofs.«138932_j87093346828907_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the same vector: the kernel's at the reshaped column of row minima over the arrays its host lines
    computed, which are the reference's stages of arguments that agree; the reference's at its last stage. -/
theorem algebraic : Cert.algebraic_KernelIdeal_ReferenceIdeal := by
  intro m ρ m' ρ' _ hagree
  refine ⟨_, Cert.KernelIdeal.Margin.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2,
    Cert.KernelIdeal.Margin.V_dist, Cert.KernelIdeal.Margin.V_denom, Cert.KernelIdeal.Margin.V_valid, Cert.KernelIdeal.Margin.V_same]
  exact (Cert.KernelIdeal.Margin.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
